-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v93)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v93) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x800000 : Shape := ⟨2, ![2, 800000]⟩
abbrev S64x64 : Shape := ⟨2, ![64, 64]⟩
abbrev S64 : Shape := ⟨1, ![64]⟩
abbrev S64x16 : Shape := ⟨2, ![64, 16]⟩
abbrev S16 : Shape := ⟨1, ![16]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S16 .f32) (main_v13 : IVec S_ 1) (main_v16 : IVec S64x16 1) : IVec S_ 1 :=
  let main_c_5 : IVec S_ 1 := constantI S_ 1 1#1
  let main_v17 : IVec S_ 1 := (fun x v => Host.reduce IntOp.andi x v reducesTo_S64x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S100000x64 .f32) (main_arg1 : IVec S2x800000 32) (main_arg2 : FVec F S64x64 .f32) (main_arg3 : FVec F S64 .f32) (main_arg4 : FVec F S64x16 .f32) (main_arg5 : FVec F S16 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x16 .f32 := Host.absf main_arg4
  let main_cst_4 : FVec F S_ .f32 := constant S_ .f32 0x7F800000#32
  let main_v15 : FVec F S64x16 .f32 := broadcastInDim S64x16 ![] bcast_S_S64x16 main_cst_4
  let main_v16 : IVec S64x16 1 := cmpf .olt main_v14 main_v15
  fn_part1 (F := F) main_arg5 main_v13 main_v16
-- ==== Kernel.lean ====
abbrev S100000x64 : Shape := ⟨2, ![100000, 64]⟩
abbrev S2x800000 : Shape := ⟨2, ![2, 800000]⟩
abbrev S64x64 : Shape := ⟨2, ![64, 64]⟩
abbrev S64 : Shape := ⟨1, ![64]⟩
abbrev S64x16 : Shape := ⟨2, ![64, 16]⟩
abbrev S16 : Shape := ⟨1, ![16]⟩
abbrev S100000 : Shape := ⟨1, ![100000]⟩
abbrev S1x800000 : Shape := ⟨2, ![1, 800000]⟩
abbrev S800000 : Shape := ⟨1, ![800000]⟩
abbrev S900000 : Shape := ⟨1, ![900000]⟩
abbrev S_ : Shape := ⟨0, ![]⟩
abbrev S900000x1 : Shape := ⟨2, ![900000, 1]⟩
abbrev S10000x64 : Shape := ⟨2, ![10000, 64]⟩
abbrev S900000x64 : Shape := ⟨2, ![900000, 64]⟩
abbrev S1x64 : Shape := ⟨2, ![1, 64]⟩
abbrev S100000x16 : Shape := ⟨2, ![100000, 16]⟩
abbrev S10000x16 : Shape := ⟨2, ![10000, 16]⟩
abbrev S900000x16 : Shape := ⟨2, ![900000, 16]⟩
abbrev S1x16 : Shape := ⟨2, ![1, 16]⟩

abbrev nBuf : Space → Nat
  | .hbm => 126
  | .vmem => 10
  | .smem => 0
  | _ => 0

abbrev bufTy : (tb : Table) → Fin (tcTables nBuf tb) → BufTy
  | .hbm, ⟨0, _⟩ => ⟨S100000x64, .f32⟩
  | .hbm, ⟨1, _⟩ => ⟨S2x800000, .i32⟩
  | .hbm, ⟨2, _⟩ => ⟨S64x64, .f32⟩
  | .hbm, ⟨3, _⟩ => ⟨S64, .f32⟩
  | .hbm, ⟨4, _⟩ => ⟨S64x16, .f32⟩
  | .hbm, ⟨5, _⟩ => ⟨S16, .f32⟩
  | .hbm, ⟨6, _⟩ => ⟨S100000, .i32⟩
  | .hbm, ⟨7, _⟩ => ⟨S1x800000, .i32⟩
  | .hbm, ⟨8, _⟩ => ⟨S800000, .i32⟩
  | .hbm, ⟨9, _⟩ => ⟨S900000, .i32⟩
  | .hbm, ⟨10, _⟩ => ⟨S1x800000, .i32⟩
  | .hbm, ⟨11, _⟩ => ⟨S800000, .i32⟩
  | .hbm, ⟨12, _⟩ => ⟨S900000, .i32⟩
  | .hbm, ⟨13, _⟩ => ⟨S_, .f32⟩
  | .hbm, ⟨14, _⟩ => ⟨S900000, .f32⟩
  | .hbm, ⟨15, _⟩ => ⟨S_, .f32⟩
  | .hbm, ⟨16, _⟩ => ⟨S100000, .f32⟩
  | .hbm, ⟨17, _⟩ => ⟨S900000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S900000, .i32⟩
  | .hbm, ⟨29, _⟩ => ⟨S900000, .i1⟩
  | .hbm, ⟨30, _⟩ => ⟨S_, .i32⟩
  | .hbm, ⟨31, _⟩ => ⟨S900000, .i32⟩
  | .hbm, ⟨32, _⟩ => ⟨S900000, .i32⟩
  | .hbm, ⟨33, _⟩ => ⟨S900000, .i32⟩
  | .hbm, ⟨34, _⟩ => ⟨S900000x1, .i32⟩
  | .hbm, ⟨35, _⟩ => ⟨S900000, .f32⟩
  | .hbm, ⟨36, _⟩ => ⟨S_, .i32⟩
  | .hbm, ⟨37, _⟩ => ⟨S900000, .i32⟩
  | .hbm, ⟨38, _⟩ => ⟨S900000, .i1⟩
  | .hbm, ⟨39, _⟩ => ⟨S_, .i32⟩
  | .hbm, ⟨40, _⟩ => ⟨S900000, .i32⟩
  | .hbm, ⟨41, _⟩ => ⟨S900000, .i32⟩
  | .hbm, ⟨42, _⟩ => ⟨S900000, .i32⟩
  | .hbm, ⟨43, _⟩ => ⟨S900000x1, .i32⟩
  | .hbm, ⟨44, _⟩ => ⟨S900000, .f32⟩
  | .hbm, ⟨45, _⟩ => ⟨S900000, .f32⟩
  | .hbm, ⟨46, _⟩ => ⟨S100000x64, .f32⟩
  | .hbm, ⟨47, _⟩ => ⟨S_, .i32⟩
  | .hbm, ⟨48, _⟩ => ⟨S900000, .i32⟩
  | .hbm, ⟨49, _⟩ => ⟨S900000, .i1⟩
  | .hbm, ⟨50, _⟩ => ⟨S_, .i32⟩
  | .hbm, ⟨51, _⟩ => ⟨S900000, .i32⟩
  | .hbm, ⟨52, _⟩ => ⟨S900000, .i32⟩
  | .hbm, ⟨53, _⟩ => ⟨S900000, .i32⟩
  | .hbm, ⟨54, _⟩ => ⟨S900000x1, .i32⟩
  | .hbm, ⟨55, _⟩ => ⟨S900000x64, .f32⟩
  | .hbm, ⟨56, _⟩ => ⟨S900000x1, .f32⟩
  | .hbm, ⟨57, _⟩ => ⟨S900000x64, .f32⟩
  | .hbm, ⟨58, _⟩ => ⟨S900000x64, .f32⟩
  | .hbm, ⟨59, _⟩ => ⟨S_, .f32⟩
  | .hbm, ⟨60, _⟩ => ⟨S100000x64, .f32⟩
  | .hbm, ⟨61, _⟩ => ⟨S900000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S100000, .i32⟩
  | .hbm, ⟨67, _⟩ => ⟨S1x800000, .i32⟩
  | .hbm, ⟨68, _⟩ => ⟨S800000, .i32⟩
  | .hbm, ⟨69, _⟩ => ⟨S900000, .i32⟩
  | .hbm, ⟨70, _⟩ => ⟨S1x800000, .i32⟩
  | .hbm, ⟨71, _⟩ => ⟨S800000, .i32⟩
  | .hbm, ⟨72, _⟩ => ⟨S900000, .i32⟩
  | .hbm, ⟨73, _⟩ => ⟨S_, .f32⟩
  | .hbm, ⟨74, _⟩ => ⟨S900000, .f32⟩
  | .hbm, ⟨75, _⟩ => ⟨S_, .f32⟩
  | .hbm, ⟨76, _⟩ => ⟨S100000, .f32⟩
  | .hbm, ⟨77, _⟩ => ⟨S900000x1, .i32⟩
  | .hbm, ⟨78, _⟩ => ⟨S100000, .f32⟩
  | .hbm, ⟨79, _⟩ => ⟨S_, .f32⟩
  | .hbm, ⟨80, _⟩ => ⟨S100000, .f32⟩
  | .hbm, ⟨81, _⟩ => ⟨S100000, .i1⟩
  | .hbm, ⟨82, _⟩ => ⟨S100000, .f32⟩
  | .hbm, ⟨83, _⟩ => ⟨S_, .f32⟩
  | .hbm, ⟨84, _⟩ => ⟨S_, .f32⟩
  | .hbm, ⟨85, _⟩ => ⟨S100000, .f32⟩
  | .hbm, ⟨86, _⟩ => ⟨S100000, .f32⟩
  | .hbm, ⟨87, _⟩ => ⟨S_, .i32⟩
  | .hbm, ⟨88, _⟩ => ⟨S900000, .i32⟩
  | .hbm, ⟨89, _⟩ => ⟨S900000, .i1⟩
  | .hbm, ⟨90, _⟩ => ⟨S_, .i32⟩
  | .hbm, ⟨91, _⟩ => ⟨S900000, .i32⟩
  | .hbm, ⟨92, _⟩ => ⟨S900000, .i32⟩
  | .hbm, ⟨93, _⟩ => ⟨S900000, .i32⟩
  | .hbm, ⟨94, _⟩ => ⟨S900000x1, .i32⟩
  | .hbm, ⟨95, _⟩ => ⟨S900000, .f32⟩
  | .hbm, ⟨96, _⟩ => ⟨S_, .i32⟩
  | .hbm, ⟨97, _⟩ => ⟨S900000, .i32⟩
  | .hbm, ⟨98, _⟩ => ⟨S900000, .i1⟩
  | .hbm, ⟨99, _⟩ => ⟨S_, .i32⟩
  | .hbm, ⟨100, _⟩ => ⟨S900000, .i32⟩
  | .hbm, ⟨101, _⟩ => ⟨S900000, .i32⟩
  | .hbm, ⟨102, _⟩ => ⟨S900000, .i32⟩
  | .hbm, ⟨103, _⟩ => ⟨S900000x1, .i32⟩
  | .hbm, ⟨104, _⟩ => ⟨S900000, .f32⟩
  | .hbm, ⟨105, _⟩ => ⟨S900000, .f32⟩
  | .hbm, ⟨106, _⟩ => ⟨S100000x16, .f32⟩
  | .hbm, ⟨107, _⟩ => ⟨S_, .i32⟩
  | .hbm, ⟨108, _⟩ => ⟨S900000, .i32⟩
  | .hbm, ⟨109, _⟩ => ⟨S900000, .i1⟩
  | .hbm, ⟨110, _⟩ => ⟨S_, .i32⟩
  | .hbm, ⟨111, _⟩ => ⟨S900000, .i32⟩
  | .hbm, ⟨112, _⟩ => ⟨S900000, .i32⟩
  | .hbm, ⟨113, _⟩ => ⟨S900000, .i32⟩
  | .hbm, ⟨114, _⟩ => ⟨S900000x1, .i32⟩
  | .hbm, ⟨115, _⟩ => ⟨S900000x16, .f32⟩
  | .hbm, ⟨116, _⟩ => ⟨S900000x1, .f32⟩
  | .hbm, ⟨117, _⟩ => ⟨S900000x16, .f32⟩
  | .hbm, ⟨118, _⟩ => ⟨S900000x16, .f32⟩
  | .hbm, ⟨119, _⟩ => ⟨S_, .f32⟩
  | .hbm, ⟨120, _⟩ => ⟨S100000x16, .f32⟩
  | .hbm, ⟨121, _⟩ => ⟨S900000x1, .i32⟩
  | .hbm, ⟨122, _⟩ => ⟨S100000x16, .f32⟩
  | .hbm, ⟨123, _⟩ => ⟨S1x16, .f32⟩
  | .hbm, ⟨124, _⟩ => ⟨S100000x16, .f32⟩
  | .hbm, ⟨125, _⟩ => ⟨S100000x16, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S64x16, .f32⟩
  | .local _ .vmem, ⟨8, _⟩ => ⟨S10000x16, .f32⟩
  | .local _ .vmem, ⟨9, _⟩ => ⟨S10000x16, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_9 : Ref sig .tc := ⟨.hbm, 73, rfl⟩
abbrev main_v54 : Ref sig .tc := ⟨.hbm, 74, rfl⟩
abbrev main_cst_10 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_11 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_12 : Ref sig .tc := ⟨.hbm, 83, rfl⟩
abbrev main_call1_v0 : Ref sig .tc := ⟨.hbm, 84, rfl⟩
abbrev main_call1_v1 : Ref sig .tc := ⟨.hbm, 85, rfl⟩
abbrev main_v61 : Ref sig .tc := ⟨.hbm, 86, rfl⟩
abbrev main_c_13 : Ref sig .tc := ⟨.hbm, 87, rfl⟩
abbrev main_v62 : Ref sig .tc := ⟨.hbm, 88, rfl⟩
abbrev main_v63 : Ref sig .tc := ⟨.hbm, 89, rfl⟩
abbrev main_c_14 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_c_15 : Ref sig .tc := ⟨.hbm, 96, rfl⟩
abbrev main_v69 : Ref sig .tc := ⟨.hbm, 97, rfl⟩
abbrev main_v70 : Ref sig .tc := ⟨.hbm, 98, rfl⟩
abbrev main_c_16 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_c_17 : Ref sig .tc := ⟨.hbm, 107, rfl⟩
abbrev main_v78 : Ref sig .tc := ⟨.hbm, 108, rfl⟩
abbrev main_v79 : Ref sig .tc := ⟨.hbm, 109, rfl⟩
abbrev main_c_18 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_cst_19 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x800000_S1x800000_0_0 : S2x800000.Slices ![0, 0] S1x800000
  shapeCasts_S1x800000_S800000 : S1x800000.ShapeCasts S800000
  concatenates_S800000_S100000_S900000_d0 : Shape.Concatenates [S800000, S100000] S900000 0
  slices_S2x800000_S1x800000_1_0 : S2x800000.Slices ![1, 0] S1x800000
  bcast_S_S900000 : S_.BroadcastsInDim S900000 (![] : Fin 0 → Fin S900000.rank)
  bcast_S_S100000 : S_.BroadcastsInDim S100000 (![] : Fin 0 → Fin S100000.rank)
  bcast_S900000_S900000x1_0 : S900000.BroadcastsInDim S900000x1 (![0] : Fin 1 → Fin S900000x1.rank)
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S900000x1_S900000x64_0_1 : S900000x1.BroadcastsInDim S900000x64 (![0, 1] : Fin 2 → Fin S900000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S10000x64_S10000x64 : S10000x64.ShapeCasts S10000x64
  inb_S64x16_S64x16_0_0 : ∀ a, (![0, 0] : Fin 2 → Nat) a + S64x16.size a ≤ S64x16.size a
  h_S64x16 : 0 < S64x16.numel
  inb_S10000x16_S10000x16_0_0 : ∀ a, (![0, 0] : Fin 2 → Nat) a + S10000x16.size a ≤ S10000x16.size a
  h_S10000x16 : 0 < S10000x16.numel
  bcast_S900000x1_S900000x16_0_1 : S900000x1.BroadcastsInDim S900000x16 (![0, 1] : Fin 2 → Fin S900000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  scatter_S100000_S900000x1_S900000_n_0_0_1_wf : ScatterDims.WF S100000 S900000x1 S900000 [] [0] [0] 1
  gather_S100000_S900000x1_S900000_n_0_n_n_0_1_1_wf : GatherDims.WF S100000 S900000x1 S900000 [] [0] [] [0] [] 1 ![1]
  dot_S10000x64_S64x64_S10000x64_1_0_0_1_n_n_wf : DotDims.WF S10000x64 S64x64 S10000x64 [1] [0] [0] [1] [] []
  gather_S100000x64_S900000x1_S900000x64_1_0_n_n_0_1_164_wf : GatherDims.WF S100000x64 S900000x1 S900000x64 [1] [0] [] [0] [] 1 ![1, 64]
  scatter_S100000x64_S900000x1_S900000x64_1_0_0_1_wf : ScatterDims.WF S100000x64 S900000x1 S900000x64 [1] [0] [0] 1
  dot_S10000x64_S64x16_S10000x16_1_0_0_1_n_n_wf : DotDims.WF S10000x64 S64x16 S10000x16 [1] [0] [0] [1] [] []
  gather_S100000x16_S900000x1_S900000x16_1_0_n_n_0_1_116_wf : GatherDims.WF S100000x16 S900000x1 S900000x16 [1] [0] [] [0] [] 1 ![1, 16]
  scatter_S100000x16_S900000x1_S900000x16_1_0_0_1_wf : ScatterDims.WF S100000x16 S900000x1 S900000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x16.size a ≤ S64x16.size a
  hwx1_1 : ∀ i : grid1.Coords, EltTy.bits .f32 = 32 ∨ (Rect.block (s := S64x16) S64x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x16.size a ≤ S100000x16.size a
  hwx1_2 : ∀ i : grid1.Coords, EltTy.bits .f32 = 32 ∨ (Rect.block (s := S100000x16) S10000x16.size (cc1_transform_2 i) (hinb1_2 i)).WholeWords (EltTy.packing .f32)

variable [Facts₀]

def scatter_S100000_S900000x1_S900000_n_0_0_1 : ScatterDims S100000 S900000x1 S900000 where
  updateWindowDims := []
  insertedWindowDims := [0]
  scatterDimsToOperandDims := [0]
  indexVectorDim := 1
  wf := scatter_S100000_S900000x1_S900000_n_0_0_1_wf
def gather_S100000_S900000x1_S900000_n_0_n_n_0_1_1 : GatherDims S100000 S900000x1 S900000 where
  offsetDims := []
  collapsedSliceDims := [0]
  operandBatchingDims := []
  startIndicesBatchingDims := []
  startIndexMap := [0]
  indexVectorDim := 1
  sliceSizes := ![1]
  wf := gather_S100000_S900000x1_S900000_n_0_n_n_0_1_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S900000x1_S900000x64_1_0_n_n_0_1_164 : GatherDims S100000x64 S900000x1 S900000x64 where
  offsetDims := [1]
  collapsedSliceDims := [0]
  operandBatchingDims := []
  startIndicesBatchingDims := []
  startIndexMap := [0]
  indexVectorDim := 1
  sliceSizes := ![1, 64]
  wf := gather_S100000x64_S900000x1_S900000x64_1_0_n_n_0_1_164_wf
def scatter_S100000x64_S900000x1_S900000x64_1_0_0_1 : ScatterDims S100000x64 S900000x1 S900000x64 where
  updateWindowDims := [1]
  insertedWindowDims := [0]
  scatterDimsToOperandDims := [0]
  indexVectorDim := 1
  wf := scatter_S100000x64_S900000x1_S900000x64_1_0_0_1_wf
def dot_S10000x64_S64x16_S10000x16_1_0_0_1_n_n : DotDims S10000x64 S64x16 S10000x16 where
  lhsContracting := [1]
  rhsContracting := [0]
  lhsNonContracting := [0]
  rhsNonContracting := [1]
  lhsBatch := []
  rhsBatch := []
  wf := dot_S10000x64_S64x16_S10000x16_1_0_0_1_n_n_wf
def gather_S100000x16_S900000x1_S900000x16_1_0_n_n_0_1_116 : GatherDims S100000x16 S900000x1 S900000x16 where
  offsetDims := [1]
  collapsedSliceDims := [0]
  operandBatchingDims := []
  startIndicesBatchingDims := []
  startIndexMap := [0]
  indexVectorDim := 1
  sliceSizes := ![1, 16]
  wf := gather_S100000x16_S900000x1_S900000x16_1_0_n_n_0_1_116_wf
def scatter_S100000x16_S900000x1_S900000x16_1_0_0_1 : ScatterDims S100000x16 S900000x1 S900000x16 where
  updateWindowDims := [1]
  insertedWindowDims := [0]
  scatterDimsToOperandDims := [0]
  indexVectorDim := 1
  wf := scatter_S100000x16_S900000x1_S900000x16_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v77) S10000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x800000 : Shape := ⟨2, ![2, 800000]⟩
abbrev S64x64 : Shape := ⟨2, ![64, 64]⟩
abbrev S64 : Shape := ⟨1, ![64]⟩
abbrev S64x16 : Shape := ⟨2, ![64, 16]⟩
abbrev S16 : Shape := ⟨1, ![16]⟩
abbrev S100000 : Shape := ⟨1, ![100000]⟩
abbrev S1x800000 : Shape := ⟨2, ![1, 800000]⟩
abbrev S800000 : Shape := ⟨1, ![800000]⟩
abbrev S900000 : Shape := ⟨1, ![900000]⟩
abbrev S_ : Shape := ⟨0, ![]⟩
abbrev S900000x1 : Shape := ⟨2, ![900000, 1]⟩
abbrev S900000x64 : Shape := ⟨2, ![900000, 64]⟩
abbrev S1x64 : Shape := ⟨2, ![1, 64]⟩
abbrev S100000x16 : Shape := ⟨2, ![100000, 16]⟩
abbrev S900000x16 : Shape := ⟨2, ![900000, 16]⟩
abbrev S1x16 : Shape := ⟨2, ![1, 16]⟩

abbrev nBuf : Space → Nat
  | .hbm => 129
  | .vmem => 0
  | .smem => 0
  | _ => 0

abbrev hbmTy0_0 (i : Nat) : BufTy := match i % 128 with
  | 0 => ⟨S100000x64, .f32⟩
  | 1 => ⟨S2x800000, .i32⟩
  | 2 => ⟨S64x64, .f32⟩
  | 3 => ⟨S64, .f32⟩
  | 4 => ⟨S64x16, .f32⟩
  | 5 => ⟨S16, .f32⟩
  | 6 => ⟨S100000, .i32⟩
  | 7 => ⟨S1x800000, .i32⟩
  | 8 => ⟨S800000, .i32⟩
  | 9 => ⟨S900000, .i32⟩
  | 10 => ⟨S1x800000, .i32⟩
  | 11 => ⟨S800000, .i32⟩
  | 12 => ⟨S900000, .i32⟩
  | 13 => ⟨S_, .f32⟩
  | 14 => ⟨S900000, .f32⟩
  | 15 => ⟨S_, .f32⟩
  | 16 => ⟨S100000, .f32⟩
  | 17 => ⟨S900000x1, .i32⟩
  | 18 => ⟨S100000, .f32⟩
  | 19 => ⟨S_, .f32⟩
  | 20 => ⟨S100000, .f32⟩
  | 21 => ⟨S100000, .i1⟩
  | 22 => ⟨S100000, .f32⟩
  | 23 => ⟨S_, .f32⟩
  | 24 => ⟨S_, .f32⟩
  | 25 => ⟨S100000, .f32⟩
  | 26 => ⟨S100000, .f32⟩
  | 27 => ⟨S_, .i32⟩
  | 28 => ⟨S900000, .i32⟩
  | 29 => ⟨S900000, .i1⟩
  | 30 => ⟨S_, .i32⟩
  | 31 => ⟨S900000, .i32⟩
  | 32 => ⟨S900000, .i32⟩
  | 33 => ⟨S900000, .i32⟩
  | 34 => ⟨S900000x1, .i32⟩
  | 35 => ⟨S900000, .f32⟩
  | 36 => ⟨S_, .i32⟩
  | 37 => ⟨S900000, .i32⟩
  | 38 => ⟨S900000, .i1⟩
  | 39 => ⟨S_, .i32⟩
  | 40 => ⟨S900000, .i32⟩
  | 41 => ⟨S900000, .i32⟩
  | 42 => ⟨S900000, .i32⟩
  | 43 => ⟨S900000x1, .i32⟩
  | 44 => ⟨S900000, .f32⟩
  | 45 => ⟨S900000, .f32⟩
  | 46 => ⟨S100000x64, .f32⟩
  | 47 => ⟨S_, .i32⟩
  | 48 => ⟨S900000, .i32⟩
  | 49 => ⟨S900000, .i1⟩
  | 50 => ⟨S_, .i32⟩
  | 51 => ⟨S900000, .i32⟩
  | 52 => ⟨S900000, .i32⟩
  | 53 => ⟨S900000, .i32⟩
  | 54 => ⟨S900000x1, .i32⟩
  | 55 => ⟨S900000x64, .f32⟩
  | 56 => ⟨S900000x1, .f32⟩
  | 57 => ⟨S900000x64, .f32⟩
  | 58 => ⟨S900000x64, .f32⟩
  | 59 => ⟨S_, .f32⟩
  | 60 => ⟨S100000x64, .f32⟩
  | 61 => ⟨S900000x1, .i32⟩
  | 62 => ⟨S100000x64, .f32⟩
  | 63 => ⟨S1x64, .f32⟩
  | 64 => ⟨S100000x64, .f32⟩
  | 65 => ⟨S100000x64, .f32⟩
  | 66 => ⟨S_, .f32⟩
  | 67 => ⟨S100000x64, .f32⟩
  | 68 => ⟨S100000x64, .f32⟩
  | 69 => ⟨S100000, .i32⟩
  | 70 => ⟨S1x800000, .i32⟩
  | 71 => ⟨S800000, .i32⟩
  | 72 => ⟨S900000, .i32⟩
  | 73 => ⟨S1x800000, .i32⟩
  | 74 => ⟨S800000, .i32⟩
  | 75 => ⟨S900000, .i32⟩
  | 76 => ⟨S_, .f32⟩
  | 77 => ⟨S900000, .f32⟩
  | 78 => ⟨S_, .f32⟩
  | 79 => ⟨S100000, .f32⟩
  | 80 => ⟨S900000x1, .i32⟩
  | 81 => ⟨S100000, .f32⟩
  | 82 => ⟨S_, .f32⟩
  | 83 => ⟨S100000, .f32⟩
  | 84 => ⟨S100000, .i1⟩
  | 85 => ⟨S100000, .f32⟩
  | 86 => ⟨S_, .f32⟩
  | 87 => ⟨S_, .f32⟩
  | 88 => ⟨S100000, .f32⟩
  | 89 => ⟨S100000, .f32⟩
  | 90 => ⟨S_, .i32⟩
  | 91 => ⟨S900000, .i32⟩
  | 92 => ⟨S900000, .i1⟩
  | 93 => ⟨S_, .i32⟩
  | 94 => ⟨S900000, .i32⟩
  | 95 => ⟨S900000, .i32⟩
  | 96 => ⟨S900000, .i32⟩
  | 97 => ⟨S900000x1, .i32⟩
  | 98 => ⟨S900000, .f32⟩
  | 99 => ⟨S_, .i32⟩
  | 100 => ⟨S900000, .i32⟩
  | 101 => ⟨S900000, .i1⟩
  | 102 => ⟨S_, .i32⟩
  | 103 => ⟨S900000, .i32⟩
  | 104 => ⟨S900000, .i32⟩
  | 105 => ⟨S900000, .i32⟩
  | 106 => ⟨S900000x1, .i32⟩
  | 107 => ⟨S900000, .f32⟩
  | 108 => ⟨S900000, .f32⟩
  | 109 => ⟨S100000x16, .f32⟩
  | 110 => ⟨S_, .i32⟩
  | 111 => ⟨S900000, .i32⟩
  | 112 => ⟨S900000, .i1⟩
  | 113 => ⟨S_, .i32⟩
  | 114 => ⟨S900000, .i32⟩
  | 115 => ⟨S900000, .i32⟩
  | 116 => ⟨S900000, .i32⟩
  | 117 => ⟨S900000x1, .i32⟩
  | 118 => ⟨S900000x16, .f32⟩
  | 119 => ⟨S900000x1, .f32⟩
  | 120 => ⟨S900000x16, .f32⟩
  | 121 => ⟨S900000x16, .f32⟩
  | 122 => ⟨S_, .f32⟩
  | 123 => ⟨S100000x16, .f32⟩
  | 124 => ⟨S900000x1, .i32⟩
  | 125 => ⟨S100000x16, .f32⟩
  | 126 => ⟨S1x16, .f32⟩
  | 127 => ⟨S100000x16, .f32⟩
  | _ => ⟨S100000x64, .f32⟩

abbrev hbmTy0_1 (i : Nat) : BufTy := match i % 128 with
  | 0 => ⟨S100000x16, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_9 : Ref sig .tc := ⟨.hbm, 76, rfl⟩
abbrev main_v55 : Ref sig .tc := ⟨.hbm, 77, rfl⟩
abbrev main_cst_10 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_12 : Ref sig .tc := ⟨.hbm, 86, rfl⟩
abbrev main_call2_v0 : Ref sig .tc := ⟨.hbm, 87, rfl⟩
abbrev main_call2_v1 : Ref sig .tc := ⟨.hbm, 88, rfl⟩
abbrev main_v62 : Ref sig .tc := ⟨.hbm, 89, rfl⟩
abbrev main_c_13 : Ref sig .tc := ⟨.hbm, 90, rfl⟩
abbrev main_v63 : Ref sig .tc := ⟨.hbm, 91, rfl⟩
abbrev main_v64 : Ref sig .tc := ⟨.hbm, 92, rfl⟩
abbrev main_c_14 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_c_15 : Ref sig .tc := ⟨.hbm, 99, rfl⟩
abbrev main_v70 : Ref sig .tc := ⟨.hbm, 100, rfl⟩
abbrev main_v71 : Ref sig .tc := ⟨.hbm, 101, rfl⟩
abbrev main_c_16 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_17 : Ref sig .tc := ⟨.hbm, 110, rfl⟩
abbrev main_v79 : Ref sig .tc := ⟨.hbm, 111, rfl⟩
abbrev main_v80 : Ref sig .tc := ⟨.hbm, 112, rfl⟩
abbrev main_c_18 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_19 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S100000_S900000_d0 : Shape.Concatenates [S800000, S100000] S900000 0
  slices_S2x800000_S1x800000_1_0 : S2x800000.Slices ![1, 0] S1x800000
  bcast_S_S900000 : S_.BroadcastsInDim S900000 (![] : Fin 0 → Fin S900000.rank)
  bcast_S_S100000 : S_.BroadcastsInDim S100000 (![] : Fin 0 → Fin S100000.rank)
  bcast_S900000_S900000x1_0 : S900000.BroadcastsInDim S900000x1 (![0] : Fin 1 → Fin S900000x1.rank)
  bcast_S900000x1_S900000x64_0_1 : S900000x1.BroadcastsInDim S900000x64 (![0, 1] : Fin 2 → Fin S900000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S900000x1_S900000x16_0_1 : S900000x1.BroadcastsInDim S900000x16 (![0, 1] : Fin 2 → Fin S900000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  scatter_S100000_S900000x1_S900000_n_0_0_1_wf : ScatterDims.WF S100000 S900000x1 S900000 [] [0] [0] 1
  gather_S100000_S900000x1_S900000_n_0_n_n_0_1_1_wf : GatherDims.WF S100000 S900000x1 S900000 [] [0] [] [0] [] 1 ![1]
  dot_S100000x64_S64x64_S100000x64_1_0_0_1_n_n_wf : DotDims.WF S100000x64 S64x64 S100000x64 [1] [0] [0] [1] [] []
  gather_S100000x64_S900000x1_S900000x64_1_0_n_n_0_1_164_wf : GatherDims.WF S100000x64 S900000x1 S900000x64 [1] [0] [] [0] [] 1 ![1, 64]
  scatter_S100000x64_S900000x1_S900000x64_1_0_0_1_wf : ScatterDims.WF S100000x64 S900000x1 S900000x64 [1] [0] [0] 1
  dot_S100000x64_S64x16_S100000x16_1_0_0_1_n_n_wf : DotDims.WF S100000x64 S64x16 S100000x16 [1] [0] [0] [1] [] []
  gather_S100000x16_S900000x1_S900000x16_1_0_n_n_0_1_116_wf : GatherDims.WF S100000x16 S900000x1 S900000x16 [1] [0] [] [0] [] 1 ![1, 16]
  scatter_S100000x16_S900000x1_S900000x16_1_0_0_1_wf : ScatterDims.WF S100000x16 S900000x1 S900000x16 [1] [0] [0] 1

variable [Facts₀]

def scatter_S100000_S900000x1_S900000_n_0_0_1 : ScatterDims S100000 S900000x1 S900000 where
  updateWindowDims := []
  insertedWindowDims := [0]
  scatterDimsToOperandDims := [0]
  indexVectorDim := 1
  wf := scatter_S100000_S900000x1_S900000_n_0_0_1_wf
def gather_S100000_S900000x1_S900000_n_0_n_n_0_1_1 : GatherDims S100000 S900000x1 S900000 where
  offsetDims := []
  collapsedSliceDims := [0]
  operandBatchingDims := []
  startIndicesBatchingDims := []
  startIndexMap := [0]
  indexVectorDim := 1
  sliceSizes := ![1]
  wf := gather_S100000_S900000x1_S900000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S900000x1_S900000x64_1_0_n_n_0_1_164 : GatherDims S100000x64 S900000x1 S900000x64 where
  offsetDims := [1]
  collapsedSliceDims := [0]
  operandBatchingDims := []
  startIndicesBatchingDims := []
  startIndexMap := [0]
  indexVectorDim := 1
  sliceSizes := ![1, 64]
  wf := gather_S100000x64_S900000x1_S900000x64_1_0_n_n_0_1_164_wf
def scatter_S100000x64_S900000x1_S900000x64_1_0_0_1 : ScatterDims S100000x64 S900000x1 S900000x64 where
  updateWindowDims := [1]
  insertedWindowDims := [0]
  scatterDimsToOperandDims := [0]
  indexVectorDim := 1
  wf := scatter_S100000x64_S900000x1_S900000x64_1_0_0_1_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf
def gather_S100000x16_S900000x1_S900000x16_1_0_n_n_0_1_116 : GatherDims S100000x16 S900000x1 S900000x16 where
  offsetDims := [1]
  collapsedSliceDims := [0]
  operandBatchingDims := []
  startIndicesBatchingDims := []
  startIndexMap := [0]
  indexVectorDim := 1
  sliceSizes := ![1, 16]
  wf := gather_S100000x16_S900000x1_S900000x16_1_0_n_n_0_1_116_wf
def scatter_S100000x16_S900000x1_S900000x16_1_0_0_1 : ScatterDims S100000x16 S900000x1 S900000x16 where
  updateWindowDims := [1]
  insertedWindowDims := [0]
  scatterDimsToOperandDims := [0]
  indexVectorDim := 1
  wf := scatter_S100000x16_S900000x1_S900000x16_1_0_0_1_wf

class Facts : Prop extends Facts₀ where

variable [Facts]
-- ==== Proof.Layer.lean ====
import proofs.«107641_j63496796504384_1_alg».proof.KernelIdeal

/-!
# The graph convolution's host side, as functions of the edge list

A layer of the network sends a node feature table `h` (one row per node) to
`out[v] = b + ∑_{edges (u → v)} dinv[u] · dinv[v] · h[u]`, where the edge list is the given 800000 edges followed by one
self loop per node, `deg[v]` counts the edges into `v`, and `dinv = deg^(-1/2)` where `deg > 0` and `0` elsewhere.
The functions below are that aggregation written with the host operations the program prints, as functions of the edge
list `e`, the table `h` and the bias `b`; they never look inside `h`. Both layers are instances (64 and 16 columns).
-/

noncomputable section

namespace Cert.KernelIdeal.Gcn

open Idealize.ShloMosaic Cert.KernelIdeal
open Cert.KernelIdeal.Facts₀ Cert.KernelIdeal.Facts

variable {F : FTy → Type} [FloatOps F] [Facts]

/-- The sources of the 900000 edges: row 0 of the edge list, then the node numbers `0 … 99999` (the self loops). -/
def src (e : IVec S2x800000 32) : IVec S900000 32 :=
  concatenate S900000 0 [⟨S800000, (shapeCast _ (extractStridedSlice S1x800000 ![0, 0] e slices_S2x800000_S1x800000_0_0) shapeCasts_S1x800000_S800000)⟩, ⟨S100000, (iotaInDim S100000 32 0)⟩] concatenates_S800000_S100000_S900000_d0

/-- The targets of the 900000 edges: row 1 of the edge list, then the node numbers. -/
def dst (e : IVec S2x800000 32) : IVec S900000 32 :=
  concatenate S900000 0 [⟨S800000, (shapeCast _ (extractStridedSlice S1x800000 ![1, 0] e slices_S2x800000_S1x800000_1_0) shapeCasts_S1x800000_S800000)⟩, ⟨S100000, (iotaInDim S100000 32 0)⟩] concatenates_S800000_S100000_S900000_d0

/-- A node number as a gather reads it: a negative one counts from the end (`v + 100000`); as a column of indices. -/
def wrapped (v : IVec S900000 32) : IVec S900000x1 32 :=
  broadcastInDim S900000x1 ![0] bcast_S900000_S900000x1_0 (select (cmpi .slt v (broadcastInDim S900000 ![] bcast_S_S900000 (constantI S_ 32 0#32))) (addi v (broadcastInDim S900000 ![] bcast_S_S900000 (constantI S_ 32 100000#32))) v)

/-- `deg[v]`: one added at the target `d` of every edge. -/
def degOf (d : IVec S900000 32) : FVec F S100000 .f32 :=
  Host.scatterAdd scatter_S100000_S900000x1_S900000_n_0_0_1 (broadcastInDim S100000 ![] bcast_S_S100000 (constant S_ .f32 0x00000000#32)) (broadcastInDim S900000x1 ![0] bcast_S900000_S900000x1_0 d) (broadcastInDim S900000 ![] bcast_S_S900000 (constant S_ .f32 0x3F800000#32))

/-- `dinv[v] = deg[v]^(-1/2)` where `deg[v] > 0`, else `0`. -/
def dinvOf (dg : FVec F S100000 .f32) : FVec F S100000 .f32 :=
  select (cmpf (F := F) .ogt dg (broadcastInDim S100000 ![] bcast_S_S100000 (constant S_ .f32 0x00000000#32))) (Host.rsqrt dg) (broadcastInDim S100000 ![] bcast_S_S100000 (id (constant S_ .f32 0x00000000#32)))

/-- The weight of each edge: `dv` at its source `s` times `dv` at its target `d`. -/
def normOf (s d : IVec S900000 32) (dv : FVec F S100000 .f32) : FVec F S900000 .f32 :=
  mulf (Host.gather gather_S100000_S900000x1_S900000_n_0_n_n_0_1_1 dv (wrapped s)) (Host.gather gather_S100000_S900000x1_S900000_n_0_n_n_0_1_1 dv (wrapped d))

/-- The weight of each edge of the list `e`: `dinv` at its source times `dinv` at its target. -/
def norm (e : IVec S2x800000 32) : FVec F S900000 .f32 :=
  normOf (src e) (dst e) (dinvOf (degOf (dst e)))

/-- Over 64 columns: each edge carries its source's row of `h` times the edge's weight `nrm` to its target, the rows
    arriving at a node are added up from zero, and the bias row `b` is added to every node. -/
def spread64 (s d : IVec S900000 32) (nrm : FVec F S900000 .f32) (h : FVec F S100000x64 .f32) (b : FVec F S64 .f32) : FVec F S100000x64 .f32 :=
  addf (Host.scatterAdd scatter_S100000x64_S900000x1_S900000x64_1_0_0_1 (broadcastInDim S100000x64 ![] bcast_S_S100000x64 (constant S_ .f32 0x00000000#32)) (broadcastInDim S900000x1 ![0] bcast_S900000_S900000x1_0 d) (mulf (Host.gather gather_S100000x64_S900000x1_S900000x64_1_0_n_n_0_1_164 h (wrapped s)) (broadcastInDim S900000x64 ![0, 1] bcast_S900000x1_S900000x64_0_1 (broadcastInDim S900000x1 ![0] bcast_S900000_S900000x1_0 nrm)))) (broadcastInDim S100000x64 ![0, 1] bcast_S1x64_S100000x64_0_1 (broadcastInDim S1x64 ![1] bcast_S64_S1x64_1 b))

/-- The same over 16 columns. -/
def spread16 (s d : IVec S900000 32) (nrm : FVec F S900000 .f32) (h : FVec F S100000x16 .f32) (b : FVec F S16 .f32) : FVec F S100000x16 .f32 :=
  addf (Host.scatterAdd scatter_S100000x16_S900000x1_S900000x16_1_0_0_1 (broadcastInDim S100000x16 ![] bcast_S_S100000x16 (constant S_ .f32 0x00000000#32)) (broadcastInDim S900000x1 ![0] bcast_S900000_S900000x1_0 d) (mulf (Host.gather gather_S100000x16_S900000x1_S900000x16_1_0_n_n_0_1_116 h (wrapped s)) (broadcastInDim S900000x16 ![0, 1] bcast_S900000x1_S900000x16_0_1 (broadcastInDim S900000x1 ![0] bcast_S900000_S900000x1_0 nrm)))) (broadcastInDim S100000x16 ![0, 1] bcast_S1x16_S100000x16_0_1 (broadcastInDim S1x16 ![1] bcast_S16_S1x16_1 b))

/-- One layer's aggregation over the edge list `e`, 64 columns. -/
def agg64 (e : IVec S2x800000 32) (h : FVec F S100000x64 .f32) (b : FVec F S64 .f32) : FVec F S100000x64 .f32 :=
  spread64 (src e) (dst e) (norm e) h b

/-- One layer's aggregation over the edge list `e`, 16 columns. -/
def agg16 (e : IVec S2x800000 32) (h : FVec F S100000x16 .f32) (b : FVec F S16 .f32) : FVec F S100000x16 .f32 :=
  spread16 (src e) (dst e) (norm e) h b

/-- The rectifier between the layers: the larger of each entry and zero. -/
def relu (a : FVec F S100000x64 .f32) : FVec F S100000x64 .f32 :=
  maximumf a (broadcastInDim S100000x64 ![] bcast_S_S100000x64 (constant S_ .f32 0x00000000#32))

end Cert.KernelIdeal.Gcn

end
-- ==== Proof.Stretches.lean ====
import proofs.«107641_j63496796504384_1_alg».proof.Proof.Gen.KernelIdeal.Launch
import proofs.«107641_j63496796504384_1_alg».proof.Proof.Layer
import Idealize.ShloMosaic.Lib.StableHlo.Run

/-!
# The seven host stretches of the kernel program, each from any contents

@main's host operations fall into seven stretches: three before the first region (the edge arrays and the degree; the
`where` that makes `dinv`; the edge weights), three between the regions (the first aggregation and the second layer's edge
arrays and degree; its `where`; its edge weights) and one after the second region (the second aggregation). For each
stretch, from ANY contents `Wp` of the buffers: what it leaves in each buffer a later stretch or region reads, as a
function of what `Wp` holds in the buffers it reads, and that it leaves every buffer it does not write as it was.
-/

set_option maxRecDepth 16384

noncomputable section

namespace Cert.KernelIdeal.Stretch

open Cert.KernelIdeal Cert.KernelIdeal.Gen
open Idealize.ShloMosaic Idealize.ShloMosaic.TcCoe Idealize.ShloMosaic.StableHlo Idealize.SL.Sem

variable {F : FTy → Type} [FloatOps F]

/-! ## What each stretch leaves alone -/

/-- The first stretch writes only its own eighteen results. -/
theorem keep0 (Wp : Valuation τ sig (Elt F)) (r : Ref sig .tc)
    (hr : r ∉ ([main_v0, main_v1, main_v2, main_v3, main_v4, main_v5, main_v6, main_cst, main_v7, main_cst_0, main_v8, main_v9, main_v10, main_cst_1, main_v11, main_v12, main_v13, main_cst_2] : List (Ref sig .tc))) :
    after hostOps0 Wp (Proc.devRef .tc r) = Wp (Proc.devRef .tc r) :=
  after_of_writes_sub hostOps0 Wp (W := [main_v0, main_v1, main_v2, main_v3, main_v4, main_v5, main_v6, main_cst, main_v7, main_cst_0, main_v8, main_v9, main_v10, main_cst_1, main_v11, main_v12, main_v13, main_cst_2]) (by
    simp only [hostOps0, List.Forall, nullary_writes, unary_writes, binary_writes, ternary_writes, reshape_writes]
    repeat' apply And.intro
    all_goals (rw [Finset.singleton_subset_iff, List.mem_toFinset]; exact List.mem_map_of_mem (by decide))) hr

/-- The first `where` writes only its own three results. -/
theorem keep0_1 (Wp : Valuation τ sig (Elt F)) (r : Ref sig .tc)
    (hr : r ∉ ([main_call0_v0, main_call0_v1, main_v14] : List (Ref sig .tc))) :
    after hostOps0_1 Wp (Proc.devRef .tc r) = Wp (Proc.devRef .tc r) :=
  after_of_writes_sub hostOps0_1 Wp (W := [main_call0_v0, main_call0_v1, main_v14]) (by
    simp only [hostOps0_1, List.Forall, nullary_writes, unary_writes, binary_writes, ternary_writes, reshape_writes]
    repeat' apply And.intro
    all_goals (rw [Finset.singleton_subset_iff, List.mem_toFinset]; exact List.mem_map_of_mem (by decide))) hr

/-- The third stretch writes only its own nineteen results. -/
theorem keep0_2 (Wp : Valuation τ sig (Elt F)) (r : Ref sig .tc)
    (hr : r ∉ ([main_c, main_v15, main_v16, main_c_3, main_v17, main_v18, main_v19, main_v20, main_v21, main_c_4, main_v22, main_v23, main_c_5, main_v24, main_v25, main_v26, main_v27, main_v28, main_v29] : List (Ref sig .tc))) :
    after hostOps0_2 Wp (Proc.devRef .tc r) = Wp (Proc.devRef .tc r) :=
  after_of_writes_sub hostOps0_2 Wp (W := [main_c, main_v15, main_v16, main_c_3, main_v17, main_v18, main_v19, main_v20, main_v21, main_c_4, main_v22, main_v23, main_c_5, main_v24, main_v25, main_v26, main_v27, main_v28, main_v29]) (by
    simp only [hostOps0_2, List.Forall, nullary_writes, unary_writes, binary_writes, ternary_writes, reshape_writes]
    repeat' apply And.intro
    all_goals (rw [Finset.singleton_subset_iff, List.mem_toFinset]; exact List.mem_map_of_mem (by decide))) hr

/-- The stretch after the first region writes only its own thirty-seven results. -/
theorem keep1 (Wp : Valuation τ sig (Elt F)) (r : Ref sig .tc)
    (hr : r ∉ ([main_c_6, main_v31, main_v32, main_c_7, main_v33, main_v34, main_v35, main_v36, main_v37, main_v38, main_v39, main_v40, main_cst_8, main_v41, main_v42, main_v43, main_v44, main_v45, main_v46, main_v47, main_v48, main_v49, main_v50, main_v51, main_v52, main_v53, main_cst_9, main_v54, main_cst_10, main_v55, main_v56, main_v57, main_cst_11, main_v58, main_v59, main_v60, main_cst_12] : List (Ref sig .tc))) :
    after hostOps1 Wp (Proc.devRef .tc r) = Wp (Proc.devRef .tc r) :=
  after_of_writes_sub hostOps1 Wp (W := [main_c_6, main_v31, main_v32, main_c_7, main_v33, main_v34, main_v35, main_v36, main_v37, main_v38, main_v39, main_v40, main_cst_8, main_v41, main_v42, main_v43, main_v44, main_v45, main_v46, main_v47, main_v48, main_v49, main_v50, main_v51, main_v52, main_v53, main_cst_9, main_v54, main_cst_10, main_v55, main_v56, main_v57, main_cst_11, main_v58, main_v59, main_v60, main_cst_12]) (by
    simp only [hostOps1, List.Forall, nullary_writes, unary_writes, binary_writes, ternary_writes, reshape_writes]
    repeat' apply And.intro
    all_goals (rw [Finset.singleton_subset_iff, List.mem_toFinset]; exact List.mem_map_of_mem (by decide))) hr

/-- The second `where` writes only its own three results. -/
theorem keep1_1 (Wp : Valuation τ sig (Elt F)) (r : Ref sig .tc)
    (hr : r ∉ ([main_call1_v0, main_call1_v1, main_v61] : List (Ref sig .tc))) :
    after hostOps1_1 Wp (Proc.devRef .tc r) = Wp (Proc.devRef .tc r) :=
  after_of_writes_sub hostOps1_1 Wp (W := [main_call1_v0, main_call1_v1, main_v61]) (by
    simp only [hostOps1_1, List.Forall, nullary_writes, unary_writes, binary_writes, ternary_writes, reshape_writes]
    repeat' apply And.intro
    all_goals (rw [Finset.singleton_subset_iff, List.mem_toFinset]; exact List.mem_map_of_mem (by decide))) hr

/-- The stretch before the second region writes only its own nineteen results. -/
theorem keep1_2 (Wp : Valuation τ sig (Elt F)) (r : Ref sig .tc)
    (hr : r ∉ ([main_c_13, main_v62, main_v63, main_c_14, main_v64, main_v65, main_v66, main_v67, main_v68, main_c_15, main_v69, main_v70, main_c_16, main_v71, main_v72, main_v73, main_v74, main_v75, main_v76] : List (Ref sig .tc))) :
    after hostOps1_2 Wp (Proc.devRef .tc r) = Wp (Proc.devRef .tc r) :=
  after_of_writes_sub hostOps1_2 Wp (W := [main_c_13, main_v62, main_v63, main_c_14, main_v64, main_v65, main_v66, main_v67, main_v68, main_c_15, main_v69, main_v70, main_c_16, main_v71, main_v72, main_v73, main_v74, main_v75, main_v76]) (by
    simp only [hostOps1_2, List.Forall, nullary_writes, unary_writes, binary_writes, ternary_writes, reshape_writes]
    repeat' apply And.intro
    all_goals (rw [Finset.singleton_subset_iff, List.mem_toFinset]; exact List.mem_map_of_mem (by decide))) hr

/-! ## What each stretch computes -/

section First
variable (Wp : Valuation τ sig (Elt F))

theorem src0 : after hostOps0 Wp (Proc.devRef .tc main_v3) = Gcn.src (Wp (Proc.devRef .tc main_arg1)) := by
  dsimp only [hostOps0]; after_results; rfl

theorem dst0 : after hostOps0 Wp (Proc.devRef .tc main_v6) = Gcn.dst (Wp (Proc.devRef .tc main_arg1)) := by
  dsimp only [hostOps0]; after_results; rfl

theorem pos0 : after hostOps0 Wp (Proc.devRef .tc main_v12)
    = cmpf (F := F) .ogt (Gcn.degOf (Gcn.dst (Wp (Proc.devRef .tc main_arg1)))) (broadcastInDim S100000 ![] Facts₀.bcast_S_S100000 (constant S_ .f32 0x00000000#32)) := by
  dsimp only [hostOps0]; after_results; rfl

theorem rsqrt0 : after hostOps0 Wp (Proc.devRef .tc main_v13) = Host.rsqrt (Gcn.degOf (F := F) (Gcn.dst (Wp (Proc.devRef .tc main_arg1)))) := by
  dsimp only [hostOps0]; after_results; rfl

theorem zero0 : after hostOps0 Wp (Proc.devRef .tc main_cst_2) = constant (F := F) S_ .f32 0x00000000#32 := by
  dsimp only [hostOps0]; after_results

theorem dinv0 : after hostOps0_1 Wp (Proc.devRef .tc main_v14)
    = select (Wp (Proc.devRef .tc main_v12)) (Wp (Proc.devRef .tc main_v13)) (broadcastInDim S100000 ![] Facts₀.bcast_S_S100000 (id (Wp (Proc.devRef .tc main_cst_2)))) := by
  dsimp only [hostOps0_1]; after_results; rfl

set_option maxHeartbeats 4000000 in
theorem norm0 : after hostOps0_2 Wp (Proc.devRef .tc main_v29)
    = Gcn.normOf (F := F) (Wp (Proc.devRef .tc main_v3)) (Wp (Proc.devRef .tc main_v6)) (Wp (Proc.devRef .tc main_v14)) := by
  dsimp only [hostOps0_2]; after_results; rfl

end First

section Second
variable (Wp : Valuation τ sig (Elt F))

set_option maxHeartbeats 4000000 in
theorem agg1 : after hostOps1 Wp (Proc.devRef .tc main_v46)
    = Gcn.spread64 (F := F) (Wp (Proc.devRef .tc main_v3)) (Wp (Proc.devRef .tc main_v6)) (Wp (Proc.devRef .tc main_v29))
        (Wp (Proc.devRef .tc main_v30)) (Wp (Proc.devRef .tc main_arg3)) := by
  dsimp only [hostOps1]; after_results; rfl

set_option maxHeartbeats 4000000 in
theorem src1 : after hostOps1 Wp (Proc.devRef .tc main_v50) = Gcn.src (Wp (Proc.devRef .tc main_arg1)) := by
  dsimp only [hostOps1]; after_results; rfl

set_option maxHeartbeats 4000000 in
theorem dst1 : after hostOps1 Wp (Proc.devRef .tc main_v53) = Gcn.dst (Wp (Proc.devRef .tc main_arg1)) := by
  dsimp only [hostOps1]; after_results; rfl

set_option maxHeartbeats 4000000 in
theorem pos1 : after hostOps1 Wp (Proc.devRef .tc main_v59)
    = cmpf (F := F) .ogt (Gcn.degOf (Gcn.dst (Wp (Proc.devRef .tc main_arg1)))) (broadcastInDim S100000 ![] Facts₀.bcast_S_S100000 (constant S_ .f32 0x00000000#32)) := by
  dsimp only [hostOps1]; after_results; rfl

set_option maxHeartbeats 4000000 in
theorem rsqrt1 : after hostOps1 Wp (Proc.devRef .tc main_v60) = Host.rsqrt (Gcn.degOf (F := F) (Gcn.dst (Wp (Proc.devRef .tc main_arg1)))) := by
  dsimp only [hostOps1]; after_results; rfl

theorem zero1 : after hostOps1 Wp (Proc.devRef .tc main_cst_12) = constant (F := F) S_ .f32 0x00000000#32 := by
  dsimp only [hostOps1]; after_results

theorem dinv1 : after hostOps1_1 Wp (Proc.devRef .tc main_v61)
    = select (Wp (Proc.devRef .tc main_v59)) (Wp (Proc.devRef .tc main_v60)) (broadcastInDim S100000 ![] Facts₀.bcast_S_S100000 (id (Wp (Proc.devRef .tc main_cst_12)))) := by
  dsimp only [hostOps1_1]; after_results; rfl

set_option maxHeartbeats 4000000 in
theorem norm1 : after hostOps1_2 Wp (Proc.devRef .tc main_v76)
    = Gcn.normOf (F := F) (Wp (Proc.devRef .tc main_v50)) (Wp (Proc.devRef .tc main_v53)) (Wp (Proc.devRef .tc main_v61)) := by
  dsimp only [hostOps1_2]; after_results; rfl

set_option maxHeartbeats 4000000 in
theorem agg2 : after hostOps2 Wp (Proc.devRef .tc main_v93)
    = Gcn.spread16 (F := F) (Wp (Proc.devRef .tc main_v50)) (Wp (Proc.devRef .tc main_v53)) (Wp (Proc.devRef .tc main_v76))
        (Wp (Proc.devRef .tc main_v77)) (Wp (Proc.devRef .tc main_arg5)) := by
  dsimp only [hostOps2]; after_results; rfl

end Second

end Cert.KernelIdeal.Stretch

end
-- ==== Proof.Region0.lean ====
import proofs.«107641_j63496796504384_1_alg».proof.Proof.Gen.KernelIdeal.Frame
import Idealize.ShloMosaic.Lib.Pipeline.Value
import Idealize.ShloMosaic.Lib.ValueIdx
import Idealize.ShloMosaic.Lib.KernelVsHost
import Idealize.ShloMosaic.Lib.StackMember
import Idealize.ShloMosaic.PureOps.Ideal.Laws

/-!
# The first kernel region: ten row blocks of `x · W`

The region walks the 100000 rows of its left operand in ten blocks of 10000; at point `t` the body multiplies rows
`10000 t … 10000 t + 9999` by the whole 64 × 64 right operand (a change of float format is the identity on the
extended reals, and a product accumulated from the zero splat is the plain sum over the contracted index) and writes
the block back to the same rows of the result. Row `r` of the result is therefore row `r` of the one whole product,
whatever block it came in: the array after the region is `x · W`.
-/

set_option maxRecDepth 16384

noncomputable section

namespace Cert.KernelIdeal.Rows0

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The whole product of a 100000 × 64 table by a 64 × 64 matrix: entry `(r, q)` is `∑ k, x (r, k) · w (k, q)`. -/
abbrev prod (x : FVec Ideal S100000x64 .f32) (w : FVec Ideal S64x64 .f32) : FVec Ideal S100000x64 .f32 :=
  Host.dotGeneral (DotDims.plain 100000 64 64) none x w

theorem prod_apply (x : FVec Ideal S100000x64 .f32) (w : FVec Ideal S64x64 .f32) (i : S100000x64.Idx) :
    prod x w i = ∑ k : Fin 64, x (ix2 (i 0) k) * w (ix2 k (i 1)) :=
  (congrArg (prod x w) (eq_ix2 i)).trans (StackMember.dotGeneral_plain_apply none x w (i 0) (i 1))

/-- The body's stored block at `(p, q)`: the block's row `p` against column `q` of the matrix. -/
theorem pay_apply (x0 : Vec Ideal S10000x64 .f32) (x1 : Vec Ideal S64x64 .f32) (p : Fin 10000) (q : Fin 64) :
    k0_pay1 x0 x1 (ix2 p q) = ∑ k : Fin 64, x0 (ix2 p k) * x1 (ix2 k q) := by
  unfold k0_pay1
  rw [matmul_zero_eq_dotGeneral]
  exact StackMember.dotGeneral_plain_apply none _ _ p q

/-- The printed index maps over the grid: the row-block index is the point, the column-block index zero, for the
    left operand and for the result; the matrix is block `(0, 0)` at every point. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left operand's block at point `t` holds rows `10000 t …` of the array the region finds. -/
theorem rows_apply (c : Dev nD) (t : Fin cfg0.N) (y : S10000x64.Idx) (i : S100000x64.Idx)
    (h0 : (i 0).val = 10000 * t.val + (y 0).val) (h1 : (i 1).val = (y 1).val) :
    (iblk0 V c 0 t : Vec Ideal S10000x64 .f32) y = (V c main_arg0 : S100000x64.Idx → Elt Ideal .f32) i := by
  obtain ⟨e0, e1, -⟩ := index_facts t
  unfold iblk0
  rw [View.read_apply]
  show V c main_arg0 _ = V c main_arg0 _
  congr 1
  funext a
  apply Fin.ext
  match a with
  | ⟨0, _⟩ => show win0_0.index t (0 : Fin 2) * 10000 + 1 * (y 0).val = (i 0).val; omega
  | ⟨1, _⟩ => show win0_0.index t (1 : Fin 2) * 64 + 1 * (y 1).val = (i 1).val; omega

/-- The matrix's block at every point is the whole matrix. -/
theorem matrix_apply (c : Dev nD) (t : Fin cfg0.N) (y : S64x64.Idx) :
    (iblk0 V c 1 t : Vec Ideal S64x64 .f32) y = (V c main_arg2 : S64x64.Idx → Elt Ideal .f32) y := by
  obtain ⟨-, -, e2, e3, -⟩ := index_facts t
  unfold iblk0
  rw [View.read_apply]
  show V c main_arg2 _ = V c main_arg2 _
  congr 1
  funext a
  apply Fin.ext
  match a with
  | ⟨0, _⟩ => show win0_1.index t (0 : Fin 2) * 64 + 1 * (y 0).val = (y 0).val; omega
  | ⟨1, _⟩ => show win0_1.index t (1 : Fin 2) * 64 + 1 * (y 1).val = (y 1).val; omega

/-- What point `t` writes back is block `t` of the whole product of the arrays the region finds. -/
theorem flushed_eq (c : Dev nD) (t : Fin cfg0.N) :
    (dat0 V c).flushed 2 t = ((cfg0.win 2).blk t).view.read (Elt Ideal) (prod (V c main_arg0) (V c main_arg2)) := by
  obtain ⟨-, -, -, -, e4, e5⟩ := index_facts t
  show (cfg0.win 2).cut (grid0.coords t) ((dat0 V c).after 2 t) = _
  rw [after0_2]
  unfold out0_2
  rw [View.canon_unit_zero zero_offsets]
  simp only [View.ld_unit_zero (S := S10000x64) zero_offsets, View.ld_unit_zero (S := S64x64) zero_offsets]
  funext j
  obtain ⟨p, q, rfl⟩ : ∃ (p : Fin 10000) (q : Fin 64), j = ix2 p q := ⟨j 0, j 1, eq_ix2 j⟩
  refine (pay_apply (iblk0 V c 0 t) (iblk0 V c 1 t) p q).trans ?_
  rw [View.read_apply]
  refine Eq.trans ?_ (prod_apply (V c main_arg0) (V c main_arg2) _).symm
  refine Finset.sum_congr rfl fun k _ => ?_
  have hl := rows_apply V c t (ix2 p k) (ix2 ((((cfg0.win 2).blk t).view.emb (ix2 p q)) 0) k)
    (by show win0_2.index t (0 : Fin 2) * 10000 + 1 * p.val = 10000 * t.val + p.val; omega) rfl
  have hr : (iblk0 V c 1 t : Vec Ideal S64x64 .f32) (ix2 k q) = (V c main_arg2 : S64x64.Idx → Elt Ideal .f32) (ix2 k ((((cfg0.win 2).blk t).view.emb (ix2 p q)) 1)) := by
    rw [matrix_apply V c t]
    congr 1
    funext a
    apply Fin.ext
    match a with
    | ⟨0, _⟩ => rfl
    | ⟨1, _⟩ => show q.val = win0_2.index t (1 : Fin 2) * 64 + 1 * q.val; omega
  rw [hl, hr]

/-- An index of the result is in point `t`'s block iff each coordinate is in the block's range on its axis. -/
theorem mem_blk (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v30).slice (win0_2.rect t)).set ↔ _
  rw [View.set_slice_whole, Rect.mem_set_unit]
  exact Iff.rfl

/-- Every row of the result lies in the block of the point `row / 10000`. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 10 := N_0
  have ht : (i 0).val / 10000 < cfg0.N := by omega
  obtain ⟨-, -, -, -, e4, e5⟩ := index_facts ⟨(i 0).val / 10000, ht⟩
  refine ⟨⟨(i 0).val / 10000, ht⟩, flush0_2 _, ?_⟩
  rw [mem_blk]
  intro a
  match a with
  | ⟨0, _⟩ => show win0_2.index ⟨(i 0).val / 10000, ht⟩ (0 : Fin 2) * 10000 ≤ (i 0).val ∧ (i 0).val < win0_2.index ⟨(i 0).val / 10000, ht⟩ (0 : Fin 2) * 10000 + 10000; rw [e4]; dsimp only; omega
  | ⟨1, _⟩ => show win0_2.index ⟨(i 0).val / 10000, ht⟩ (1 : Fin 2) * 64 ≤ (i 1).val ∧ (i 1).val < win0_2.index ⟨(i 0).val / 10000, ht⟩ (1 : Fin 2) * 64 + 64; rw [e5]; omega

/-- The result array after the region is the whole product of the two arrays the region finds. -/
theorem final (c : Dev nD) : (dat0 V c).arrAt 2 cfg0.N = prod (V c main_arg0) (V c main_arg2) :=
  (dat0 V c).arrAt_eq_of_cover 2 (prod (V c main_arg0) (V c main_arg2)) (fun t _ => flushed_eq V c t) cover

end Cert.KernelIdeal.Rows0

end
-- ==== Proof.Region1.lean ====
import proofs.«107641_j63496796504384_1_alg».proof.Proof.Gen.KernelIdeal.Frame
import proofs.«107641_j63496796504384_1_alg».proof.Proof.Layer
import Idealize.ShloMosaic.Lib.Pipeline.Value
import Idealize.ShloMosaic.Lib.ValueIdx
import Idealize.ShloMosaic.Lib.KernelVsHost
import Idealize.ShloMosaic.Lib.StackMember
import Idealize.ShloMosaic.PureOps.Ideal.Laws

/-!
# The second kernel region: ten row blocks of `max(a, 0) · W`

The region walks the 100000 rows of its left operand in ten blocks of 10000; at point `t` the body takes the larger of
each entry of rows `10000 t … 10000 t + 9999` and zero, multiplies those rows by the whole 64 × 16 right operand (a change
of float format is the identity on the extended reals, and a product accumulated from the zero splat is the plain sum
over the contracted index) and writes the block back to the same rows of the result. The rectifier acts entry by entry,
so rectifying a block of rows is the block of the rectified table; row `r` of the result is row `r` of the one whole
product of the rectified table by the matrix.
-/

set_option maxRecDepth 16384

noncomputable section

namespace Cert.KernelIdeal.Rows1

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The whole product of a 100000 × 64 table by a 64 × 16 matrix: entry `(r, q)` is `∑ k, x (r, k) · w (k, q)`. -/
abbrev prod (x : FVec Ideal S100000x64 .f32) (w : FVec Ideal S64x16 .f32) : FVec Ideal S100000x16 .f32 :=
  Host.dotGeneral (DotDims.plain 100000 64 16) none x w

theorem prod_apply (x : FVec Ideal S100000x64 .f32) (w : FVec Ideal S64x16 .f32) (i : S100000x16.Idx) :
    prod x w i = ∑ k : Fin 64, x (ix2 (i 0) k) * w (ix2 k (i 1)) :=
  (congrArg (prod x w) (eq_ix2 i)).trans (StackMember.dotGeneral_plain_apply none x w (i 0) (i 1))

/-- The rectified table at an index: the larger of the entry and zero. -/
theorem relu_apply (a : FVec Ideal S100000x64 .f32) (i : S100000x64.Idx) :
    Gcn.relu a i = max (a i) (Scalar.ofBits (F := Ideal) .f32 0x00000000#32) := by
  unfold Gcn.relu
  rw [broadcastInDim_constant]
  rfl

/-- The body's stored block at `(p, q)`: the block's rectified row `p` against column `q` of the matrix. -/
theorem pay_apply (x0 : Vec Ideal S10000x64 .f32) (x1 : Vec Ideal S64x16 .f32) (p : Fin 10000) (q : Fin 16) :
    k1_pay1 x0 x1 (ix2 p q) = ∑ k : Fin 64, max (x0 (ix2 p k)) (Scalar.ofBits (F := Ideal) .f32 0x00000000#32) * x1 (ix2 k q) := by
  unfold k1_pay1
  rw [matmul_zero_eq_dotGeneral, shapeCast_self]
  exact StackMember.dotGeneral_plain_apply none _ _ p q

/-- The printed index maps over the grid: the row-block index is the point, the column-block index zero, for the
    left operand and for the result; the matrix is block `(0, 0)` at every point. -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The left operand's block at point `t` holds rows `10000 t …` of the array the region finds. -/
theorem rows_apply (c : Dev nD) (t : Fin cfg1.N) (y : S10000x64.Idx) (i : S100000x64.Idx)
    (h0 : (i 0).val = 10000 * t.val + (y 0).val) (h1 : (i 1).val = (y 1).val) :
    (iblk1 V c 0 t : Vec Ideal S10000x64 .f32) y = (V c main_v46 : S100000x64.Idx → Elt Ideal .f32) i := by
  obtain ⟨e0, e1, -⟩ := index_facts t
  unfold iblk1
  rw [View.read_apply]
  show V c main_v46 _ = V c main_v46 _
  congr 1
  funext a
  apply Fin.ext
  match a with
  | ⟨0, _⟩ => show win1_0.index t (0 : Fin 2) * 10000 + 1 * (y 0).val = (i 0).val; omega
  | ⟨1, _⟩ => show win1_0.index t (1 : Fin 2) * 64 + 1 * (y 1).val = (i 1).val; omega

/-- The matrix's block at every point is the whole matrix. -/
theorem matrix_apply (c : Dev nD) (t : Fin cfg1.N) (y : S64x16.Idx) :
    (iblk1 V c 1 t : Vec Ideal S64x16 .f32) y = (V c main_arg4 : S64x16.Idx → Elt Ideal .f32) y := by
  obtain ⟨-, -, e2, e3, -⟩ := index_facts t
  unfold iblk1
  rw [View.read_apply]
  show V c main_arg4 _ = V c main_arg4 _
  congr 1
  funext a
  apply Fin.ext
  match a with
  | ⟨0, _⟩ => show win1_1.index t (0 : Fin 2) * 64 + 1 * (y 0).val = (y 0).val; omega
  | ⟨1, _⟩ => show win1_1.index t (1 : Fin 2) * 16 + 1 * (y 1).val = (y 1).val; omega

/-- What point `t` writes back is block `t` of the whole product of the rectified table by the matrix, both as the region
    finds them. -/
theorem flushed_eq (c : Dev nD) (t : Fin cfg1.N) :
    (dat1 V c).flushed 2 t = ((cfg1.win 2).blk t).view.read (Elt Ideal) (prod (Gcn.relu (V c main_v46)) (V c main_arg4)) := by
  obtain ⟨-, -, -, -, e4, e5⟩ := index_facts t
  show (cfg1.win 2).cut (grid1.coords t) ((dat1 V c).after 2 t) = _
  rw [after1_2]
  unfold out1_2
  rw [View.canon_unit_zero zero_offsets]
  simp only [View.ld_unit_zero (S := S10000x64) zero_offsets, View.ld_unit_zero (S := S64x16) zero_offsets]
  funext j
  obtain ⟨p, q, rfl⟩ : ∃ (p : Fin 10000) (q : Fin 16), j = ix2 p q := ⟨j 0, j 1, eq_ix2 j⟩
  refine (pay_apply (iblk1 V c 0 t) (iblk1 V c 1 t) p q).trans ?_
  rw [View.read_apply]
  refine Eq.trans ?_ (prod_apply (Gcn.relu (V c main_v46)) (V c main_arg4) _).symm
  refine Finset.sum_congr rfl fun k _ => ?_
  have hl := rows_apply V c t (ix2 p k) (ix2 ((((cfg1.win 2).blk t).view.emb (ix2 p q)) 0) k)
    (by show win1_2.index t (0 : Fin 2) * 10000 + 1 * p.val = 10000 * t.val + p.val; omega) rfl
  have hr : (iblk1 V c 1 t : Vec Ideal S64x16 .f32) (ix2 k q) = (V c main_arg4 : S64x16.Idx → Elt Ideal .f32) (ix2 k ((((cfg1.win 2).blk t).view.emb (ix2 p q)) 1)) := by
    rw [matrix_apply V c t]
    congr 1
    funext a
    apply Fin.ext
    match a with
    | ⟨0, _⟩ => rfl
    | ⟨1, _⟩ => show q.val = win1_2.index t (1 : Fin 2) * 16 + 1 * q.val; omega
  rw [hl, hr, relu_apply]

/-- An index of the result is in point `t`'s block iff each coordinate is in the block's range on its axis. -/
theorem mem_blk (t : Fin cfg1.N) (i : S100000x16.Idx) :
    i ∈ ((cfg1.win 2).blk t).view.set ↔ ∀ a : Fin 2, win1_2.index t a * S10000x16.size a ≤ (i a).val ∧ (i a).val < win1_2.index t a * S10000x16.size a + S10000x16.size a := by
  show i ∈ ((View.whole main_v77).slice (win1_2.rect t)).set ↔ _
  rw [View.set_slice_whole, Rect.mem_set_unit]
  exact Iff.rfl

/-- Every row of the result lies in the block of the point `row / 10000`. -/
theorem cover (i : S100000x16.Idx) : ∃ t : Fin cfg1.N, (cfg1.win 2).flush t = true ∧ i ∈ ((cfg1.win 2).blk t).view.set := by
  have hi0 : (i 0).val < 100000 := (i 0).isLt
  have hi1 : (i 1).val < 16 := (i 1).isLt
  have hN : cfg1.N = 10 := N_1
  have ht : (i 0).val / 10000 < cfg1.N := by omega
  obtain ⟨-, -, -, -, e4, e5⟩ := index_facts ⟨(i 0).val / 10000, ht⟩
  refine ⟨⟨(i 0).val / 10000, ht⟩, flush1_2 _, ?_⟩
  rw [mem_blk]
  intro a
  match a with
  | ⟨0, _⟩ => show win1_2.index ⟨(i 0).val / 10000, ht⟩ (0 : Fin 2) * 10000 ≤ (i 0).val ∧ (i 0).val < win1_2.index ⟨(i 0).val / 10000, ht⟩ (0 : Fin 2) * 10000 + 10000; rw [e4]; dsimp only; omega
  | ⟨1, _⟩ => show win1_2.index ⟨(i 0).val / 10000, ht⟩ (1 : Fin 2) * 16 ≤ (i 1).val ∧ (i 1).val < win1_2.index ⟨(i 0).val / 10000, ht⟩ (1 : Fin 2) * 16 + 16; rw [e5]; omega

/-- The result array after the region is the whole product of the rectified table by the matrix. -/
theorem final (c : Dev nD) : (dat1 V c).arrAt 2 cfg1.N = prod (Gcn.relu (V c main_v46)) (V c main_arg4) :=
  (dat1 V c).arrAt_eq_of_cover 2 (prod (Gcn.relu (V c main_v46)) (V c main_arg4)) (fun t _ => flushed_eq V c t) cover

end Cert.KernelIdeal.Rows1

end
-- ==== Proof.KernelChain.lean ====
import proofs.«107641_j63496796504384_1_alg».proof.Proof.Gen.KernelIdeal.Frame
import proofs.«107641_j63496796504384_1_alg».proof.Proof.Layer
import proofs.«107641_j63496796504384_1_alg».proof.Proof.Stretches
import proofs.«107641_j63496796504384_1_alg».proof.Proof.Region0
import proofs.«107641_j63496796504384_1_alg».proof.Proof.Region1

/-!
# The kernel program's result, boundary by boundary

The frame run leaves the result buffer at the contents of the last of ten boundaries: the launch, the three host stretches
before the first region, that region's exit, the three stretches between the regions, the second region's exit, the last
stretch. Reading each boundary off the one before: the first three stretches compute the edges' sources, targets and weights
from the edge list; the first region leaves `x · W₁`; the next three aggregate it over the edges, add the first bias, and
compute the same three edge arrays again; the second region leaves `max(·, 0) · W₂` of that; the last stretch aggregates
it and adds the second bias.
-/

set_option maxRecDepth 16384

noncomputable section

namespace Cert.KernelIdeal.Chain

open Cert.KernelIdeal Cert.KernelIdeal.Gen
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-- The edge list as launched. -/
abbrev edges : IVec S2x800000 32 := m ((c : Thread nD τ).loc main_arg1)

/-! ## Up to the first region -/

/-- A buffer none of the first three stretches writes holds its launch contents when the first region is entered. -/
theorem W3_launch (r : Ref sig .tc)
    (h0 : r ∉ ([main_v0, main_v1, main_v2, main_v3, main_v4, main_v5, main_v6, main_cst, main_v7, main_cst_0, main_v8, main_v9, main_v10, main_cst_1, main_v11, main_v12, main_v13, main_cst_2] : List (Ref sig .tc)))
    (h1 : r ∉ ([main_call0_v0, main_call0_v1, main_v14] : List (Ref sig .tc)))
    (h2 : r ∉ ([main_c, main_v15, main_v16, main_c_3, main_v17, main_v18, main_v19, main_v20, main_v21, main_c_4, main_v22, main_v23, main_c_5, main_v24, main_v25, main_v26, main_v27, main_v28, main_v29] : List (Ref sig .tc))) :
    W3 m ρ c (Proc.devRef .tc r) = m ((c : Thread nD τ).loc r) :=
  (Stretch.keep0_2 (W2 m ρ c) r h2).trans ((Stretch.keep0_1 (W1 m ρ c) r h1).trans (Stretch.keep0 (W0 m ρ c) r h0))

theorem W1_src : W1 m ρ c (Proc.devRef .tc main_v3) = Gcn.src (edges m c) := Stretch.src0 (W0 m ρ c)
theorem W1_dst : W1 m ρ c (Proc.devRef .tc main_v6) = Gcn.dst (edges m c) := Stretch.dst0 (W0 m ρ c)

theorem W2_src : W2 m ρ c (Proc.devRef .tc main_v3) = Gcn.src (edges m c) :=
  (Stretch.keep0_1 (W1 m ρ c) main_v3 (by decide)).trans (W1_src m ρ c)
theorem W2_dst : W2 m ρ c (Proc.devRef .tc main_v6) = Gcn.dst (edges m c) :=
  (Stretch.keep0_1 (W1 m ρ c) main_v6 (by decide)).trans (W1_dst m ρ c)

theorem W2_dinv : W2 m ρ c (Proc.devRef .tc main_v14) = Gcn.dinvOf (F := Ideal) (Gcn.degOf (Gcn.dst (edges m c))) := by
  have h12 : W1 m ρ c (Proc.devRef .tc main_v12) = _ := Stretch.pos0 (W0 m ρ c)
  have h13 : W1 m ρ c (Proc.devRef .tc main_v13) = _ := Stretch.rsqrt0 (W0 m ρ c)
  have hz : W1 m ρ c (Proc.devRef .tc main_cst_2) = _ := Stretch.zero0 (W0 m ρ c)
  refine (Stretch.dinv0 (W1 m ρ c)).trans ?_
  rw [h12, h13, hz]
  rfl

theorem W3_src : W3 m ρ c (Proc.devRef .tc main_v3) = Gcn.src (edges m c) :=
  (Stretch.keep0_2 (W2 m ρ c) main_v3 (by decide)).trans (W2_src m ρ c)
theorem W3_dst : W3 m ρ c (Proc.devRef .tc main_v6) = Gcn.dst (edges m c) :=
  (Stretch.keep0_2 (W2 m ρ c) main_v6 (by decide)).trans (W2_dst m ρ c)

theorem W3_norm : W3 m ρ c (Proc.devRef .tc main_v29) = Gcn.norm (F := Ideal) (edges m c) := by
  refine (Stretch.norm0 (W2 m ρ c)).trans ?_
  rw [W2_src, W2_dst, W2_dinv]
  rfl

/-! ## The first region and the stretches after it -/

/-- The first product: the feature table by the first weight matrix. -/
abbrev xw1 : FVec Ideal S100000x64 .f32 :=
  Rows0.prod (m ((c : Thread nD τ).loc main_arg0)) (m ((c : Thread nD τ).loc main_arg2))

theorem W4_prod : W4 m ρ c (Proc.devRef .tc main_v30) = xw1 m c := by
  refine (W4_arr m ρ c 2).trans ((Rows0.final (V3 m ρ) c).trans ?_)
  have e0 : V3 m ρ c main_arg0 = m ((c : Thread nD τ).loc main_arg0) := W3_launch m ρ c main_arg0 (by decide) (by decide) (by decide)
  have e2 : V3 m ρ c main_arg2 = m ((c : Thread nD τ).loc main_arg2) := W3_launch m ρ c main_arg2 (by decide) (by decide) (by decide)
  rw [e0, e2]

/-- A buffer that is not one of the first region's three arrays leaves the region as it entered. -/
theorem W4_keep (r : Ref sig .tc) (hr : ∀ w, Pipeline.arrRef spec0 w ≠ r) :
    W4 m ρ c (Proc.devRef .tc r) = W3 m ρ c (Proc.devRef .tc r) := W4_of_ne m ρ c r hr

theorem W4_launch (r : Ref sig .tc) (hr : ∀ w, Pipeline.arrRef spec0 w ≠ r)
    (h0 : r ∉ ([main_v0, main_v1, main_v2, main_v3, main_v4, main_v5, main_v6, main_cst, main_v7, main_cst_0, main_v8, main_v9, main_v10, main_cst_1, main_v11, main_v12, main_v13, main_cst_2] : List (Ref sig .tc)))
    (h1 : r ∉ ([main_call0_v0, main_call0_v1, main_v14] : List (Ref sig .tc)))
    (h2 : r ∉ ([main_c, main_v15, main_v16, main_c_3, main_v17, main_v18, main_v19, main_v20, main_v21, main_c_4, main_v22, main_v23, main_c_5, main_v24, main_v25, main_v26, main_v27, main_v28, main_v29] : List (Ref sig .tc))) :
    W4 m ρ c (Proc.devRef .tc r) = m ((c : Thread nD τ).loc r) :=
  (W4_keep m ρ c r hr).trans (W3_launch m ρ c r h0 h1 h2)

/-- The first layer's output: the first product aggregated over the edges, plus the first bias. -/
abbrev layer1 : FVec Ideal S100000x64 .f32 :=
  Gcn.agg64 (edges m c) (xw1 m c) (m ((c : Thread nD τ).loc main_arg3))

theorem W5_layer1 : W5 m ρ c (Proc.devRef .tc main_v46) = layer1 m c := by
  refine (Stretch.agg1 (W4 m ρ c)).trans ?_
  rw [(W4_keep m ρ c main_v3 (by decide)).trans (W3_src m ρ c), (W4_keep m ρ c main_v6 (by decide)).trans (W3_dst m ρ c),
    (W4_keep m ρ c main_v29 (by decide)).trans (W3_norm m ρ c), W4_prod,
    W4_launch m ρ c main_arg3 (by decide) (by decide) (by decide) (by decide)]
  rfl

theorem W4_edges : W4 m ρ c (Proc.devRef .tc main_arg1) = edges m c :=
  W4_launch m ρ c main_arg1 (by decide) (by decide) (by decide) (by decide)

theorem W5_src : W5 m ρ c (Proc.devRef .tc main_v50) = Gcn.src (edges m c) :=
  (Stretch.src1 (W4 m ρ c)).trans (by rw [W4_edges])
theorem W5_dst : W5 m ρ c (Proc.devRef .tc main_v53) = Gcn.dst (edges m c) :=
  (Stretch.dst1 (W4 m ρ c)).trans (by rw [W4_edges])

theorem W6_dinv : W6 m ρ c (Proc.devRef .tc main_v61) = Gcn.dinvOf (F := Ideal) (Gcn.degOf (Gcn.dst (edges m c))) := by
  have h59 : W5 m ρ c (Proc.devRef .tc main_v59) = _ := Stretch.pos1 (W4 m ρ c)
  have h60 : W5 m ρ c (Proc.devRef .tc main_v60) = _ := Stretch.rsqrt1 (W4 m ρ c)
  have hz : W5 m ρ c (Proc.devRef .tc main_cst_12) = _ := Stretch.zero1 (W4 m ρ c)
  refine (Stretch.dinv1 (W5 m ρ c)).trans ?_
  rw [h59, h60, hz, W4_edges]
  rfl

/-- A buffer the two stretches before the second region do not write enters that region as the stretch after the first
    region left it. -/
theorem W7_keep (r : Ref sig .tc)
    (h1 : r ∉ ([main_call1_v0, main_call1_v1, main_v61] : List (Ref sig .tc)))
    (h2 : r ∉ ([main_c_13, main_v62, main_v63, main_c_14, main_v64, main_v65, main_v66, main_v67, main_v68, main_c_15, main_v69, main_v70, main_c_16, main_v71, main_v72, main_v73, main_v74, main_v75, main_v76] : List (Ref sig .tc))) :
    W7 m ρ c (Proc.devRef .tc r) = W5 m ρ c (Proc.devRef .tc r) :=
  (Stretch.keep1_2 (W6 m ρ c) r h2).trans (Stretch.keep1_1 (W5 m ρ c) r h1)

theorem W6_src : W6 m ρ c (Proc.devRef .tc main_v50) = Gcn.src (edges m c) :=
  (Stretch.keep1_1 (W5 m ρ c) main_v50 (by decide)).trans (W5_src m ρ c)
theorem W6_dst : W6 m ρ c (Proc.devRef .tc main_v53) = Gcn.dst (edges m c) :=
  (Stretch.keep1_1 (W5 m ρ c) main_v53 (by decide)).trans (W5_dst m ρ c)

theorem W7_norm : W7 m ρ c (Proc.devRef .tc main_v76) = Gcn.norm (F := Ideal) (edges m c) := by
  refine (Stretch.norm1 (W6 m ρ c)).trans ?_
  rw [W6_src, W6_dst, W6_dinv]
  rfl

/-- A buffer written by none of the six host stretches up to the second region, and no array of the first region, holds
    its launch contents there. -/
theorem W7_launch (r : Ref sig .tc) (hr : ∀ w, Pipeline.arrRef spec0 w ≠ r)
    (h0 : r ∉ ([main_v0, main_v1, main_v2, main_v3, main_v4, main_v5, main_v6, main_cst, main_v7, main_cst_0, main_v8, main_v9, main_v10, main_cst_1, main_v11, main_v12, main_v13, main_cst_2] : List (Ref sig .tc)))
    (h1 : r ∉ ([main_call0_v0, main_call0_v1, main_v14] : List (Ref sig .tc)))
    (h2 : r ∉ ([main_c, main_v15, main_v16, main_c_3, main_v17, main_v18, main_v19, main_v20, main_v21, main_c_4, main_v22, main_v23, main_c_5, main_v24, main_v25, main_v26, main_v27, main_v28, main_v29] : List (Ref sig .tc)))
    (h3 : r ∉ ([main_c_6, main_v31, main_v32, main_c_7, main_v33, main_v34, main_v35, main_v36, main_v37, main_v38, main_v39, main_v40, main_cst_8, main_v41, main_v42, main_v43, main_v44, main_v45, main_v46, main_v47, main_v48, main_v49, main_v50, main_v51, main_v52, main_v53, main_cst_9, main_v54, main_cst_10, main_v55, main_v56, main_v57, main_cst_11, main_v58, main_v59, main_v60, main_cst_12] : List (Ref sig .tc)))
    (h4 : r ∉ ([main_call1_v0, main_call1_v1, main_v61] : List (Ref sig .tc)))
    (h5 : r ∉ ([main_c_13, main_v62, main_v63, main_c_14, main_v64, main_v65, main_v66, main_v67, main_v68, main_c_15, main_v69, main_v70, main_c_16, main_v71, main_v72, main_v73, main_v74, main_v75, main_v76] : List (Ref sig .tc))) :
    W7 m ρ c (Proc.devRef .tc r) = m ((c : Thread nD τ).loc r) :=
  (W7_keep m ρ c r h4 h5).trans ((Stretch.keep1 (W4 m ρ c) r h3).trans (W4_launch m ρ c r hr h0 h1 h2))

/-! ## The second region and the last stretch -/

/-- The second product: the rectified first layer by the second weight matrix. -/
abbrev xw2 : FVec Ideal S100000x16 .f32 :=
  Rows1.prod (Gcn.relu (layer1 m c)) (m ((c : Thread nD τ).loc main_arg4))

theorem W8_prod : W8 m ρ c (Proc.devRef .tc main_v77) = xw2 m c := by
  refine (W8_arr m ρ c 2).trans ((Rows1.final (V7 m ρ) c).trans ?_)
  have e0 : V7 m ρ c main_v46 = layer1 m c := (W7_keep m ρ c main_v46 (by decide) (by decide)).trans (W5_layer1 m ρ c)
  have e4 : V7 m ρ c main_arg4 = m ((c : Thread nD τ).loc main_arg4) :=
    W7_launch m ρ c main_arg4 (by decide) (by decide) (by decide) (by decide) (by decide) (by decide) (by decide)
  rw [e0, e4]

/-- A buffer that is not one of the second region's three arrays leaves the region as it entered. -/
theorem W8_keep (r : Ref sig .tc) (hr : ∀ w, Pipeline.arrRef spec1 w ≠ r) :
    W8 m ρ c (Proc.devRef .tc r) = W7 m ρ c (Proc.devRef .tc r) := W8_of_ne m ρ c r hr

/-- THE RESULT: the second product aggregated over the edges, plus the second bias. -/
theorem result : W9 m ρ c (Proc.devRef .tc main_v93)
    = Gcn.agg16 (edges m c) (xw2 m c) (m ((c : Thread nD τ).loc main_arg5)) := by
  refine (Stretch.agg2 (W8 m ρ c)).trans ?_
  rw [(W8_keep m ρ c main_v50 (by decide)).trans ((W7_keep m ρ c main_v50 (by decide) (by decide)).trans (W5_src m ρ c)),
    (W8_keep m ρ c main_v53 (by decide)).trans ((W7_keep m ρ c main_v53 (by decide) (by decide)).trans (W5_dst m ρ c)),
    (W8_keep m ρ c main_v76 (by decide)).trans (W7_norm m ρ c), W8_prod,
    (W8_keep m ρ c main_arg5 (by decide)).trans (W7_launch m ρ c main_arg5 (by decide) (by decide) (by decide) (by decide) (by decide) (by decide) (by decide))]
  rfl

end Cert.KernelIdeal.Chain

end
-- ==== Proof.RefTerm.lean ====
import proofs.«107641_j63496796504384_1_alg».proof.Proof.RefRunP
import proofs.«107641_j63496796504384_1_alg».proof.Proof.Gen.KernelIdeal
import proofs.«107641_j63496796504384_1_alg».proof.Proof.Layer

/-!
# The reference's result as two aggregations around two whole products

The reference applies to the edge list and the tables exactly the host operations of the aggregation (the same sources,
targets, weights, gathers and scatter-adds), with the host's own matrix product in the two places where the kernel
program launches a region and its rectifier between the layers. Its composed result term is therefore the second
aggregation of the product of the rectified first aggregation of the first product.
-/

noncomputable section

namespace Cert.ReferenceIdeal.Term

open Idealize.ShloMosaic Idealize.ShloMosaic.TcCoe Idealize.SL.Sem
open Cert.KernelIdeal (Gcn.agg64 Gcn.agg16 Gcn.spread64 Gcn.spread16 Gcn.relu Gcn.norm Gcn.normOf Gcn.dinvOf Gcn.degOf Gcn.wrapped Gcn.src Gcn.dst)

variable {F : FTy → Type} [FloatOps F]

set_option maxRecDepth 16384 in
theorem result_eq (m : (ℓ : Loc Cert.ReferenceIdeal.nD Cert.ReferenceIdeal.τ Cert.ReferenceIdeal.sig) → Buf (Elt F) ℓ) (c : Dev Cert.ReferenceIdeal.nD) :
    Cert.ReferenceIdeal.ValueP.res_main_v94 m c
      = Gcn.agg16 (m ((c.tc : Thread Cert.ReferenceIdeal.nD Cert.ReferenceIdeal.τ).loc Cert.ReferenceIdeal.main_arg1))
          (Host.dotGeneral Cert.ReferenceIdeal.dot_S100000x64_S64x16_S100000x16_1_0_0_1_n_n none
            (Gcn.relu (Gcn.agg64 (m ((c.tc : Thread Cert.ReferenceIdeal.nD Cert.ReferenceIdeal.τ).loc Cert.ReferenceIdeal.main_arg1))
              (Host.dotGeneral Cert.ReferenceIdeal.dot_S100000x64_S64x64_S100000x64_1_0_0_1_n_n none
                (m ((c.tc : Thread Cert.ReferenceIdeal.nD Cert.ReferenceIdeal.τ).loc Cert.ReferenceIdeal.main_arg0))
                (m ((c.tc : Thread Cert.ReferenceIdeal.nD Cert.ReferenceIdeal.τ).loc Cert.ReferenceIdeal.main_arg2)))
              (m ((c.tc : Thread Cert.ReferenceIdeal.nD Cert.ReferenceIdeal.τ).loc Cert.ReferenceIdeal.main_arg3))))
            (m ((c.tc : Thread Cert.ReferenceIdeal.nD Cert.ReferenceIdeal.τ).loc Cert.ReferenceIdeal.main_arg4)))
          (m ((c.tc : Thread Cert.ReferenceIdeal.nD Cert.ReferenceIdeal.τ).loc Cert.ReferenceIdeal.main_arg5)) := by
  unfold Cert.ReferenceIdeal.ValueP.res_main_v94 Gcn.agg16 Gcn.agg64 Gcn.spread16 Gcn.spread64 Gcn.relu Gcn.norm Gcn.normOf Gcn.dinvOf Gcn.degOf Gcn.wrapped Gcn.src Gcn.dst
  rfl

end Cert.ReferenceIdeal.Term

end
-- ==== Proof.lean ====
/-
  A two-layer graph convolution: `out = Â · max(Â · (x · W₁) + b₁, 0) · W₂ + b₂`, where `Â` sends a table `h` to
  `(Â h)[v] = ∑_{edges (u → v)} dinv[u] · dinv[v] · h[u]` over the given edges and one self loop per node, `dinv = deg^(-1/2)`
  where the in-degree is positive and zero elsewhere.

  The kernel program computes the two dense products `x · W₁` and `max(·, 0) · W₂` in pipelined regions, ten blocks of
  10000 rows each, and everything else (degrees, edge weights, gathers, scatter-adds, biases) with host operations; the
  reference computes the same host operations around the host's own products and a host rectifier. On the extended reals
  a change of float format is the identity and a product accumulated from the zero splat is the plain sum over the
  contracted index, so each region's blocks are the row blocks of one whole product (the rectifier acts entry by entry,
  so it commutes with taking a block of rows), and the two programs' results are one term of the arguments: the second
  aggregation of the second product of the rectified first aggregation of the first product. No law of arithmetic beyond
  that is used, so the finiteness of the inputs is never opened.

  The frames of the two kernel programs are the generated ones; the reference's frame is its run with the result dropped.
  The idealization rewrote nothing, so `preserves` is trivial.
-/
import proofs.«107641_j63496796504384_1_alg».proof.Defs
import proofs.«107641_j63496796504384_1_alg».proof.Proof.Gen.Kernel
import proofs.«107641_j63496796504384_1_alg».proof.Proof.Gen.Kernel.Skeleton
import proofs.«107641_j63496796504384_1_alg».proof.Proof.Gen.Kernel.Launch
import proofs.«107641_j63496796504384_1_alg».proof.Proof.Gen.Kernel.Points
import proofs.«107641_j63496796504384_1_alg».proof.Proof.Gen.Kernel.Frame
import proofs.«107641_j63496796504384_1_alg».proof.Proof.Gen.KernelIdeal
import proofs.«107641_j63496796504384_1_alg».proof.Proof.Gen.KernelIdeal.Skeleton
import proofs.«107641_j63496796504384_1_alg».proof.Proof.Gen.KernelIdeal.Launch
import proofs.«107641_j63496796504384_1_alg».proof.Proof.Gen.KernelIdeal.Points
import proofs.«107641_j63496796504384_1_alg».proof.Proof.Gen.KernelIdeal.Frame
import proofs.«107641_j63496796504384_1_alg».proof.Proof.Gen.ReferenceIdeal
import proofs.«107641_j63496796504384_1_alg».proof.Proof.Gen.Pre_finite_inputs
import proofs.«107641_j63496796504384_1_alg».proof.Proof.KernelRunP
import proofs.«107641_j63496796504384_1_alg».proof.Proof.KernelChain
import proofs.«107641_j63496796504384_1_alg».proof.Proof.RefRunP
import proofs.«107641_j63496796504384_1_alg».proof.Proof.RefTerm
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.ValueP.run (F := Ideal) m ρ)

/-- The reference's first product has the plain dimension numbers: contract axis 1 of the table with axis 0 of the matrix. -/
theorem dot1_plain : Cert.ReferenceIdeal.dot_S100000x64_S64x64_S100000x64_1_0_0_1_n_n = DotDims.plain 100000 64 64 := rfl

/-- So has its second product. -/
theorem dot2_plain : Cert.ReferenceIdeal.dot_S100000x64_S64x16_S100000x16_1_0_0_1_n_n = DotDims.plain 100000 64 16 := rfl

/-- Both programs end with the result buffer at the second aggregation of the second product: the kernel program by the
    frame run read boundary by boundary, the reference by its run's composed term, in which the host's two products are
    the whole products the regions' blocks tile. -/
theorem algebraic : Cert.algebraic_KernelIdeal_ReferenceIdeal := by
  intro m ρ m' ρ' _ hagree
  refine ⟨fun c => Cert.KernelIdeal.Gcn.agg16 (Cert.KernelIdeal.Chain.edges m c) (Cert.KernelIdeal.Chain.xw2 m c)
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Chain.result m ρ c), (h c).2⟩)
      (Cert.KernelIdeal.GenP.run_main m ρ)
  · refine (θ_run Cert.ReferenceIdeal.defs _ _).mono (fun _ h c => ⟨(h c).1.trans ?_, (h c).2⟩)
      (Cert.ReferenceIdeal.ValueP.run (F := Ideal) m' ρ')
    obtain ⟨a0, a1, a2, a3, a4, a5⟩ := hagree c
    rw [Cert.ReferenceIdeal.Term.result_eq, a0, a1, a2, a3, a4, a5, dot1_plain, dot2_plain]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
